-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S2048x8192 : Shape := ⟨2, ![2048, 8192]⟩
abbrev S8192 : Shape := ⟨1, ![8192]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S1024x2048 .f32) (main_arg1 : IVec S2048x8192 32) (main_arg2 : IVec S2048x8192 32) (main_arg3 : FVec F S8192 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S8192 .f32 := Host.absf main_arg3
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S1024x2048 : Shape := ⟨2, ![1024, 2048]⟩
abbrev S2048x8192 : Shape := ⟨2, ![2048, 8192]⟩
abbrev S8192 : Shape := ⟨1, ![8192]⟩
abbrev S1x8192 : Shape := ⟨2, ![1, 8192]⟩
abbrev S256x2048 : Shape := ⟨2, ![256, 2048]⟩
abbrev S2048x512 : Shape := ⟨2, ![2048, 512]⟩
abbrev S1x512 : Shape := ⟨2, ![1, 512]⟩
abbrev S256x512 : Shape := ⟨2, ![256, 512]⟩

abbrev nBuf : Space → Nat
  | .hbm => 6
  | .vmem => 11
  | .smem => 0
  | _ => 0

abbrev bufTy : (tb : Table) → Fin (tcTables nBuf tb) → BufTy
  | .hbm, ⟨0, _⟩ => ⟨S1024x2048, .f32⟩
  | .hbm, ⟨1, _⟩ => ⟨S2048x8192, .i32⟩
  | .hbm, ⟨2, _⟩ => ⟨S2048x8192, .i32⟩
  | .hbm, ⟨3, _⟩ => ⟨S8192, .f32⟩
  | .hbm, ⟨4, _⟩ => ⟨S1x8192, .f32⟩
  | .hbm, ⟨5, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S2048x512, .i32⟩
  | .local _ .vmem, ⟨3, _⟩ => ⟨S2048x512, .i32⟩
  | .local _ .vmem, ⟨4, _⟩ => ⟨S2048x512, .i32⟩
  | .local _ .vmem, ⟨5, _⟩ => ⟨S2048x512, .i32⟩
  | .local _ .vmem, ⟨6, _⟩ => ⟨S1x512, .f32⟩
  | .local _ .vmem, ⟨7, _⟩ => ⟨S1x512, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S1x8192 : S8192.ShapeCasts S1x8192
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  dot_S256x2048_S2048x512_S256x512_1_0_0_1_n_n_wf : DotDims.WF S256x2048 S2048x512 S256x512 [1] [0] [0] [1] [] []
  dot_S256x512_S2048x512_S256x2048_1_1_0_0_n_n_wf : DotDims.WF S256x512 S2048x512 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S1024x2048.size a
  hwx0_0 : ∀ i : grid0.Coords, EltTy.bits .f32 = 32 ∨ (Rect.block (s := S1024x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x8192.size a
  hwx0_1 : ∀ i : grid0.Coords, EltTy.bits .i32 = 32 ∨ (Rect.block (s := S2048x8192) S2048x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x8192.size a
  hwx0_2 : ∀ i : grid0.Coords, EltTy.bits .i32 = 32 ∨ (Rect.block (s := S2048x8192) S2048x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S1024x2048.size a
  hwx0_4 : ∀ i : grid0.Coords, EltTy.bits .f32 = 32 ∨ (Rect.block (s := S1024x2048) S256x2048.size (cc0_transform_4 i) (hinb0_4 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x2048 : Shape := ⟨2, ![1024, 2048]⟩
abbrev S2048x8192 : Shape := ⟨2, ![2048, 8192]⟩
abbrev S8192 : Shape := ⟨1, ![8192]⟩
abbrev S1024x8192 : Shape := ⟨2, ![1024, 8192]⟩
abbrev S1x8192 : Shape := ⟨2, ![1, 8192]⟩

abbrev nBuf : Space → Nat
  | .hbm => 13
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x8192, .i32⟩
  | .hbm, ⟨2, _⟩ => ⟨S2048x8192, .i32⟩
  | .hbm, ⟨3, _⟩ => ⟨S8192, .f32⟩
  | .hbm, ⟨4, _⟩ => ⟨S1024x2048, .f32⟩
  | .hbm, ⟨5, _⟩ => ⟨S2048x8192, .f32⟩
  | .hbm, ⟨6, _⟩ => ⟨S1024x8192, .f32⟩
  | .hbm, ⟨7, _⟩ => ⟨S1024x8192, .f32⟩
  | .hbm, ⟨8, _⟩ => ⟨S1x8192, .f32⟩
  | .hbm, ⟨9, _⟩ => ⟨S1024x8192, .f32⟩
  | .hbm, ⟨10, _⟩ => ⟨S1024x8192, .f32⟩
  | .hbm, ⟨11, _⟩ => ⟨S2048x8192, .f32⟩
  | .hbm, ⟨12, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S1024x8192_0_1 : S1x8192.BroadcastsInDim S1024x8192 (![0, 1] : Fin 2 → Fin S1024x8192.rank)
  dot_S1024x2048_S2048x8192_S1024x8192_1_0_0_1_n_n_wf : DotDims.WF S1024x2048 S2048x8192 S1024x8192 [1] [0] [0] [1] [] []
  dot_S1024x8192_S2048x8192_S1024x2048_1_1_0_0_n_n_wf : DotDims.WF S1024x8192 S2048x8192 S1024x2048 [1] [1] [0] [0] [] []

variable [Facts₀]

def dot_S1024x2048_S2048x8192_S1024x8192_1_0_0_1_n_n : DotDims S1024x2048 S2048x8192 S1024x8192 where
  lhsContracting := [1]
  rhsContracting := [0]
  lhsNonContracting := [0]
  rhsNonContracting := [1]
  lhsBatch := []
  rhsBatch := []
  wf := dot_S1024x2048_S2048x8192_S1024x8192_1_0_0_1_n_n_wf
def dot_S1024x8192_S2048x8192_S1024x2048_1_1_0_0_n_n : DotDims S1024x8192 S2048x8192 S1024x2048 where
  lhsContracting := [1]
  rhsContracting := [1]
  lhsNonContracting := [0]
  rhsNonContracting := [0]
  lhsBatch := []
  rhsBatch := []
  wf := dot_S1024x8192_S2048x8192_S1024x2048_1_1_0_0_n_n_wf

class Facts : Prop extends Facts₀ where

variable [Facts]
-- ==== Proof.Spec.lean ====
/-
  What both programs compute, on the extended reals, written once over the argument arrays.

  For a batch row `b`, a metabolite `q` and a reaction `r`:
    * the log-space exponent sum   s(b, r) = ∑ⱼ log x(b, j) · E(j, r)   (j over the 2048 metabolites, `E` an integer);
    * the reaction rate            v(b, r) = k(r) · exp (s(b, r));
    * the reaction's share of the right-hand side   v(b, r) · S(q, r)   (`S` an integer);
    * the result                   out(b, q) = ∑ᵣ v(b, r) · S(q, r)     (r over the 8192 reactions).

  The kernel does not form that sum in one go: it cuts the reactions into 16 tiles of 512, forms each tile's sum
  and adds the tiles one after the other into an accumulator that starts at zero. Addition of extended reals is
  commutative and associative, so the tiled, ordered sum is the plain one (`runSum_last`); nothing here needs the
  summands to be finite.
-/
import Idealize.ShloMosaic.PureOps.Ideal
import Idealize.ShloMosaic.PureOps.Ideal.Laws
import Idealize.ShloMosaic.Lib.ValueIdx

noncomputable section

namespace Cert.Kinetic

open Idealize.ShloMosaic Idealize.ShloMosaic.ValueIdx
open scoped BigOperators

/-- Concentrations: 1024 batch rows by 2048 metabolites. -/
abbrev ConcArr : Type := (⟨2, ![1024, 2048]⟩ : Shape).Idx → EReal
/-- An integer matrix, 2048 metabolites by 8192 reactions: the kinetic orders, or the stoichiometry. -/
abbrev IntArr : Type := (⟨2, ![2048, 8192]⟩ : Shape).Idx → BitVec 32
/-- One rate constant per reaction. -/
abbrev RateArr : Type := (⟨1, ![8192]⟩ : Shape).Idx → EReal

/-- A 32-bit integer read as an extended real: the signed integer it denotes. -/
abbrev intVal (w : BitVec 32) : EReal := ((w.toInt : ℝ) : EReal)

/-- The exponent of reaction `r` at batch row `b`, in log space: `∑ⱼ log x(b, j) · E(j, r)`. -/
def logRate (x : ConcArr) (E : IntArr) (b : Fin 1024) (r : Fin 8192) : EReal :=
  ∑ j : Fin 2048, Ideal.log (x (ix2 b j)) * intVal (E (ix2 j r))

/-- The rate of reaction `r` at batch row `b`: `k(r) · exp (∑ⱼ log x(b, j) · E(j, r))`. -/
def rate (x : ConcArr) (E : IntArr) (k : RateArr) (b : Fin 1024) (r : Fin 8192) : EReal :=
  k (ix1 r) * Ideal.exp (logRate x E b r)

/-- Reaction `r`'s share of metabolite `q`'s rate of change at batch row `b`. -/
def share (x : ConcArr) (E S : IntArr) (k : RateArr) (b : Fin 1024) (q : Fin 2048) (r : Fin 8192) : EReal :=
  rate x E k b r * intVal (S (ix2 q r))

/-- THE RESULT: metabolite `q`'s rate of change at batch row `b`, the sum of all reactions' shares. -/
def flux (x : ConcArr) (E S : IntArr) (k : RateArr) : (⟨2, ![1024, 2048]⟩ : Shape).Idx → EReal :=
  fun i => ∑ r : Fin 8192, share x E S k (i 0) (i 1) r

/-! ## The same sum, tile by tile -/

/-- A reaction's share with the reaction numbered by a natural number (zero past the last reaction). -/
def shareN (x : ConcArr) (E S : IntArr) (k : RateArr) (b : Fin 1024) (q : Fin 2048) (r : ℕ) : EReal :=
  if h : r < 8192 then share x E S k b q ⟨r, h⟩ else 0

theorem shareN_of_lt (x : ConcArr) (E S : IntArr) (k : RateArr) (b : Fin 1024) (q : Fin 2048) (r : ℕ) (h : r < 8192) :
    shareN x E S k b q r = share x E S k b q ⟨r, h⟩ := dif_pos h

/-- The sum of the shares of tile `j`'s 512 reactions, `512 j … 512 j + 511`. -/
def tileSum (x : ConcArr) (E S : IntArr) (k : RateArr) (b : Fin 1024) (q : Fin 2048) (j : ℕ) : EReal :=
  ∑ q' : Fin 512, shareN x E S k b q (512 * j + q'.val)

/-- The accumulator after tile `n`: tiles `0 … n` added up. -/
def runSum (x : ConcArr) (E S : IntArr) (k : RateArr) (b : Fin 1024) (q : Fin 2048) (n : ℕ) : EReal :=
  ∑ j ∈ Finset.range (n + 1), tileSum x E S k b q j

theorem runSum_zero (x : ConcArr) (E S : IntArr) (k : RateArr) (b : Fin 1024) (q : Fin 2048) :
    runSum x E S k b q 0 = 0 + tileSum x E S k b q 0 := by
  unfold runSum
  rw [Finset.sum_range_one, zero_add]

theorem runSum_succ (x : ConcArr) (E S : IntArr) (k : RateArr) (b : Fin 1024) (q : Fin 2048) (n : ℕ) :
    runSum x E S k b q (n + 1) = runSum x E S k b q n + tileSum x E S k b q (n + 1) := by
  unfold runSum
  rw [Finset.sum_range_succ]

/-- Sixteen tiles of 512 are the 8192 numbers below 8192, in any commutative monoid. -/
theorem sum_tiles {M : Type*} [AddCommMonoid M] (f : ℕ → M) :
    ∑ j ∈ Finset.range 16, ∑ q' : Fin 512, f (512 * j + q'.val) = ∑ r : Fin 8192, f r.val := by
  rw [← Fin.sum_univ_eq_sum_range (fun j => ∑ q' : Fin 512, f (512 * j + q'.val)) 16, ← Fintype.sum_prod_type']
  rw [← Equiv.sum_comp (finProdFinEquiv (m := 16) (n := 512)) (fun r : Fin (16 * 512) => f r.val)]
  refine Finset.sum_congr rfl fun p _ => ?_
  show f _ = f _
  congr 1
  simp only [finProdFinEquiv_apply_val]
  omega

/-- After the last tile the accumulator holds the whole sum. -/
theorem runSum_last (x : ConcArr) (E S : IntArr) (k : RateArr) (b : Fin 1024) (q : Fin 2048) :
    runSum x E S k b q 15 = flux x E S k (ix2 b q) := by
  unfold runSum tileSum flux
  rw [sum_tiles (shareN x E S k b q)]
  exact Finset.sum_congr rfl fun r _ => shareN_of_lt x E S k b q r.val r.isLt

end Cert.Kinetic

end
-- ==== Proof.RefIsFlux.lean ====
/-
  The reference computes `flux`.

  Its last stage is a sum over the 8192 reactions of (rate) · (stoichiometric coefficient); the rate is the
  broadcast rate constant times the exponential of a sum over the 2048 metabolites of log-concentration times kinetic
  order. Read at an index, each stage lands on exactly the entries the specification names, so the two sides are the
  same expression once the stages' index functions are identified with the coordinates (b, j), (j, r), (q, r) and r.
-/
import proofs.«144620_j31602369364718_1_alg».proof.Proof.Gen.ReferenceIdeal.Read
import proofs.«144620_j31602369364718_1_alg».proof.Proof.Spec

noncomputable section

namespace Cert.Kinetic.Reference

open Cert.ReferenceIdeal Cert.ReferenceIdeal.Read Idealize.ShloMosaic Idealize.ShloMosaic.ValueIdx
open scoped BigOperators

/-- The reference's result, as a function of the four argument arrays, is `flux`: entry (b, q) is
    `∑ᵣ (k(r) · exp (∑ⱼ log x(b, j) · E(j, r))) · S(q, r)`. -/
theorem result_eq_flux (x : (⟨S1024x2048, .f32⟩ : BufTy).Contents (Elt Ideal))
    (E S : (⟨S2048x8192, .i32⟩ : BufTy).Contents (Elt Ideal)) (k : (⟨S8192, .f32⟩ : BufTy).Contents (Elt Ideal)) :
    val_main_v8 (F := Ideal) x E S k = flux x E S k := by
  funext i
  rw [val_main_v8_apply]
  unfold flux
  refine Finset.sum_congr rfl fun r _ => ?_
  -- the reaction-rate stage at (b, r), and the stoichiometry at (q, r)
  have hk : idx_main_v4 (idx_main_v5 (lidx_main_v8 i r)) = ix1 r :=
    funext fun a => match a with | ⟨0, _⟩ => rfl
  have hx : ∀ j : Fin 2048, lidx_main_v2 (lidx_main_v8 i r) j = ix2 (i 0) j :=
    fun j => funext fun a => match a with | ⟨0, _⟩ => rfl | ⟨1, _⟩ => rfl
  have hE : ∀ j : Fin 2048, ridx_main_v2 (lidx_main_v8 i r) j = ix2 j r :=
    fun j => funext fun a => match a with | ⟨0, _⟩ => rfl | ⟨1, _⟩ => rfl
  have hS : ridx_main_v8 i r = ix2 (i 1) r :=
    funext fun a => match a with | ⟨0, _⟩ => rfl | ⟨1, _⟩ => rfl
  rw [val_main_v6_apply, val_main_v7_apply, val_main_v5_apply, val_main_v4_apply, val_main_v3_apply, val_main_v2_apply]
  simp only [val_main_v0_apply, val_main_v1_apply, hk, hx, hE, hS]
  rfl

end Cert.Kinetic.Reference

end
-- ==== Proof.Pieces.lean ====
/-
  What one run of the kernel body leaves behind, as values.

  The body, at a grid point, (re)writes the whole 256 × 2048 accumulator once: with `acc + tile`, where `tile` is
  this point's product of the 256 × 512 rate block with the 512 × 2048 stoichiometry block and `acc` is what the
  accumulator held — the zero block at the first reaction tile of a batch tile (the body has just stored it), the
  previous point's contents otherwise. At the last reaction tile the body then copies the accumulator into the output
  block. All of this is the one payload `k0_pay2` applied to the point's four input blocks and the old accumulator.
  The statements hold for any float type.
-/
import proofs.«144620_j31602369364718_1_alg».proof.Proof.Gen.KernelIdeal.Frame
import Idealize.ShloMosaic.Lib.Pipeline.Value
import Idealize.ShloMosaic.Lib.Tactic

noncomputable section

namespace Cert.Kinetic.Body

open Cert.KernelIdeal Cert.KernelIdeal.Gen Idealize.ShloMosaic Idealize.ShloMosaic.TcCoe Idealize.ShloMosaic.Tactic Idealize.SL.Sem

variable {F : FTy → Type} [FloatOps F]

/-- Every load and store of the body starts at the block's origin. -/
theorem hz : (![0, 0] : Fin 2 → Nat) = fun _ => 0 := funext fun a => by fin_cases a <;> rfl

/-- FIRST REACTION TILE: the accumulator is reset to the zero block and then holds `0 + tile`. -/
theorem scratch_first (c : Dev nD) (i : grid0.Coords) (arg2 : Memref sig .tc .vmem S256x2048 .f32) (harg2 : arg2.IsWhole) (arg3 : Memref sig .tc .vmem S2048x512 .i32) (harg3 : arg3.IsWhole) (arg4 : Memref sig .tc .vmem S2048x512 .i32) (harg4 : arg4.IsWhole) (arg5 : Memref sig .tc .vmem S1x512 .f32) (harg5 : arg5.IsWhole) (arg6 : Memref sig .tc .vmem S256x2048 .f32) (harg6 : arg6.IsWhole) (arg7 : Memref sig .tc .vmem S256x2048 .f32) (harg7 : arg7.IsWhole) (hc0 : cond0_0 i) (hc1 : ¬cond0_1 i)
    (x0 : Vec F S256x2048 .f32) (x1 : Vec F S2048x512 .i32) (x2 : Vec F S2048x512 .i32) (x3 : Vec F S1x512 .f32) :
    sout0_A_0 c i arg2 harg2 arg3 harg3 arg4 harg4 arg5 harg5 arg6 harg6 arg7 harg7 hc0 hc1 x0 x1 x2 x3 = k0_pay2 x0 x1 x3 x2 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S256x2048) hz, View.readCov_unit_zero (S := S256x2048) _ hz]
  simp only [View.readAt_eq_ld, harg2.read_unread, harg3.read_unread, harg4.read_unread, harg5.read_unread, harg7.read_unread,
    View.ld_unit_zero (S := S256x2048) hz, View.ld_unit_zero (S := S2048x512) hz, View.ld_unit_zero (S := S1x512) hz]

/-- A MIDDLE REACTION TILE: the accumulator, holding `acc`, then holds `acc + tile`. -/
theorem scratch_middle (c : Dev nD) (i : grid0.Coords) (arg2 : Memref sig .tc .vmem S256x2048 .f32) (harg2 : arg2.IsWhole) (arg3 : Memref sig .tc .vmem S2048x512 .i32) (harg3 : arg3.IsWhole) (arg4 : Memref sig .tc .vmem S2048x512 .i32) (harg4 : arg4.IsWhole) (arg5 : Memref sig .tc .vmem S1x512 .f32) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : ¬cond0_1 i)
    (x0 : Vec F S256x2048 .f32) (x1 : Vec F S2048x512 .i32) (x2 : Vec F S2048x512 .i32) (x3 : Vec F S1x512 .f32) (acc : Vec F S256x2048 .f32) :
    sout0_B_0 c i arg2 harg2 arg3 harg3 arg4 harg4 arg5 harg5 arg6 harg6 arg7 harg7 hc0 hc1 x0 x1 x2 x3 acc = k0_pay2 x0 x1 x3 x2 acc := by
  unfold sout0_B_0
  rw [View.read_writes_eq_canon _ _ _ (scover0_B_0 c i arg2 harg2 arg3 harg3 arg4 harg4 arg5 harg5 arg6 harg6 arg7 harg7 hc0 hc1 x0 x1 x2 x3 acc)]
  unfold kernelRun0_B
  dsimp only
  sl_unfold_words
  rw [View.canon_unit_zero hz]
  simp only [View.readAt_eq_ld, harg2.read_unread, harg3.read_unread, harg4.read_unread, harg5.read_unread, harg7.read_unread,
    View.ld_unit_zero (S := S256x2048) hz, View.ld_unit_zero (S := S2048x512) hz, View.ld_unit_zero (S := S1x512) hz]

/-- THE LAST REACTION TILE: the accumulator, holding `acc`, then holds `acc + tile` … -/
theorem scratch_last (c : Dev nD) (i : grid0.Coords) (arg2 : Memref sig .tc .vmem S256x2048 .f32) (harg2 : arg2.IsWhole) (arg3 : Memref sig .tc .vmem S2048x512 .i32) (harg3 : arg3.IsWhole) (arg4 : Memref sig .tc .vmem S2048x512 .i32) (harg4 : arg4.IsWhole) (arg5 : Memref sig .tc .vmem S1x512 .f32) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : cond0_1 i)
    (x0 : Vec F S256x2048 .f32) (x1 : Vec F S2048x512 .i32) (x2 : Vec F S2048x512 .i32) (x3 : Vec F S1x512 .f32) (acc : Vec F S256x2048 .f32) :
    sout0_C_0 c i arg2 harg2 arg3 harg3 arg4 harg4 arg5 harg5 arg6 harg6 arg7 harg7 hc0 hc1 x0 x1 x2 x3 acc = k0_pay2 x0 x1 x3 x2 acc := by
  unfold sout0_C_0
  rw [View.read_writes_eq_canon _ _ _ (scover0_C_0 c i arg2 harg2 arg3 harg3 arg4 harg4 arg5 harg5 arg6 harg6 arg7 harg7 hc0 hc1 x0 x1 x2 x3 acc)]
  unfold kernelRun0_C
  dsimp only
  sl_unfold_words
  rw [View.canon_unit_zero hz]
  simp only [View.readAt_eq_ld, harg2.read_unread, harg3.read_unread, harg4.read_unread, harg5.read_unread, harg7.read_unread,
    View.ld_unit_zero (S := S256x2048) hz, View.ld_unit_zero (S := S2048x512) hz, View.ld_unit_zero (S := S1x512) hz]

/-- … and the output block is stored with that same `acc + tile`. -/
theorem out_last (c : Dev nD) (i : grid0.Coords) (arg2 : Memref sig .tc .vmem S256x2048 .f32) (harg2 : arg2.IsWhole) (arg3 : Memref sig .tc .vmem S2048x512 .i32) (harg3 : arg3.IsWhole) (arg4 : Memref sig .tc .vmem S2048x512 .i32) (harg4 : arg4.IsWhole) (arg5 : Memref sig .tc .vmem S1x512 .f32) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : cond0_1 i)
    (x0 : Vec F S256x2048 .f32) (x1 : Vec F S2048x512 .i32) (x2 : Vec F S2048x512 .i32) (x3 : Vec F S1x512 .f32) (acc : Vec F S256x2048 .f32) :
    out0_C_4 c i arg2 harg2 arg3 harg3 arg4 harg4 arg5 harg5 arg6 harg6 arg7 harg7 hc0 hc1 x0 x1 x2 x3 acc = k0_pay2 x0 x1 x3 x2 acc := by
  unfold out0_C_4
  rw [View.read_writes_eq_canon _ _ _ (cover0_C_4 c i arg2 harg2 arg3 harg3 arg4 harg4 arg5 harg5 arg6 harg6 arg7 harg7 hc0 hc1 x0 x1 x2 x3 acc)]
  unfold kernelRun0_C
  dsimp only
  sl_unfold_words
  rw [View.canon_unit_zero hz, View.readCov_unit_zero (S := S256x2048) _ hz]
  simp only [View.readAt_eq_ld, harg2.read_unread, harg3.read_unread, harg4.read_unread, harg5.read_unread, harg7.read_unread,
    View.ld_unit_zero (S := S256x2048) hz, View.ld_unit_zero (S := S2048x512) hz, View.ld_unit_zero (S := S1x512) hz]

end Cert.Kinetic.Body

end
-- ==== Proof.Blocks.lean ====
/-
  The grid, and what the body sees at each of its 64 points.

  Point `t` is batch tile `t / 16` (of 4) and reaction tile `t % 16` (of 16). There the body sees
    * rows `256 (t / 16) … + 255` of the concentrations, all 2048 columns;
    * columns `512 (t % 16) … + 511` of the two integer matrices, all 2048 rows;
    * entries `512 (t % 16) … + 511` of the rate constants (through the host's reshape to one row);
  and the accumulator is the payload of those four blocks over the zero block at a first reaction tile, over what
  the point before left otherwise; at a last reaction tile the output block is stored with the same value.
-/
import proofs.«144620_j31602369364718_1_alg».proof.Proof.Gen.KernelIdeal.Frame
import proofs.«144620_j31602369364718_1_alg».proof.Proof.Pieces
import Idealize.ShloMosaic.Lib.Pipeline.Value
import Idealize.ShloMosaic.Lib.ValueIdx
import Idealize.ShloMosaic.Lib.StableHlo.Run

noncomputable section

namespace Cert.Kinetic.Blocks

open Cert.KernelIdeal Cert.KernelIdeal.Gen Idealize.ShloMosaic Idealize.ShloMosaic.TcCoe Idealize.ShloMosaic.ValueIdx
open Idealize.SL.Sem Idealize.ShloMosaic.StableHlo

variable {F : FTy → Type} [FloatOps F]
variable (m : (ℓ : Loc nD τ sig) → Buf (Elt F) ℓ)

/-- The block index maps, decided over the 64 points: the concentrations and the output move with the batch tile,
    the two integer matrices and the rate constants with the reaction tile. -/
theorem idx_facts : ∀ t : Fin cfg0.N,
    win0_0.index t (0 : Fin 2) = t.val / 16 ∧ win0_0.index t (1 : Fin 2) = 0
    ∧ win0_1.index t (0 : Fin 2) = 0 ∧ win0_1.index t (1 : Fin 2) = t.val % 16
    ∧ win0_2.index t (0 : Fin 2) = 0 ∧ win0_2.index t (1 : Fin 2) = t.val % 16
    ∧ win0_3.index t (0 : Fin 2) = 0 ∧ win0_3.index t (1 : Fin 2) = t.val % 16
    ∧ win0_4.index t (0 : Fin 2) = t.val / 16 ∧ win0_4.index t (1 : Fin 2) = 0 :=
  (by decide +kernel : ∀ t : Fin grid0.N, _)

theorem lt64 (t : Fin cfg0.N) : t.val < 64 := lt_of_lt_of_eq t.isLt (show cfg0.N = 64 from N_0)

/-! ## The four input blocks at a point, at their literal types -/

abbrev xblk (c : Dev nD) (t : Fin cfg0.N) : Vec F S256x2048 .f32 := iblk m c 0 t
abbrev eblk (c : Dev nD) (t : Fin cfg0.N) : Vec F S2048x512 .i32 := iblk m c 1 t
abbrev sblk (c : Dev nD) (t : Fin cfg0.N) : Vec F S2048x512 .i32 := iblk m c 2 t
abbrev kblk (c : Dev nD) (t : Fin cfg0.N) : Vec F S1x512 .f32 := iblk m c 3 t

/-- The concentration block: row `p` of the block is row `256 (t / 16) + p` of the array. -/
theorem xblk_apply (c : Dev nD) (t : Fin cfg0.N) (p : Fin 256) (hb : 256 * (t.val / 16) + p.val < 1024) (j : Fin 2048) :
    xblk m c t (ix2 p j) = m ((c : Thread nD τ).loc main_arg0) (ix2 ⟨256 * (t.val / 16) + p.val, hb⟩ j) := by
  obtain ⟨e0, e1, -⟩ := idx_facts t
  refine Eq.trans ?_ (congrFun (V_main_arg0 m c) _)
  show V m c main_arg0 (((cfg0.win 0).blk t).view.emb (ix2 p j)) = V m c main_arg0 (ix2 ⟨256 * (t.val / 16) + p.val, hb⟩ j)
  refine congrArg (V m c main_arg0) (funext fun a => Fin.ext ?_)
  match a with
  | ⟨0, _⟩ => show win0_0.index t (0 : Fin 2) * 256 + 1 * p.val = 256 * (t.val / 16) + p.val; rw [e0]; omega
  | ⟨1, _⟩ => show win0_0.index t (1 : Fin 2) * 2048 + 1 * j.val = j.val; rw [e1]; omega

/-- The kinetic-order block: column `q'` of the block is column `512 (t % 16) + q'` of the array. -/
theorem eblk_apply (c : Dev nD) (t : Fin cfg0.N) (q' : Fin 512) (hr : 512 * (t.val % 16) + q'.val < 8192) (j : Fin 2048) :
    eblk m c t (ix2 j q') = m ((c : Thread nD τ).loc main_arg1) (ix2 j ⟨512 * (t.val % 16) + q'.val, hr⟩) := by
  obtain ⟨-, -, e0, e1, -⟩ := idx_facts t
  refine Eq.trans ?_ (congrFun (V_main_arg1 m c) _)
  show V m c main_arg1 (((cfg0.win 1).blk t).view.emb (ix2 j q')) = V m c main_arg1 (ix2 j ⟨512 * (t.val % 16) + q'.val, hr⟩)
  refine congrArg (V m c main_arg1) (funext fun a => Fin.ext ?_)
  match a with
  | ⟨0, _⟩ => show win0_1.index t (0 : Fin 2) * 2048 + 1 * j.val = j.val; rw [e0]; omega
  | ⟨1, _⟩ => show win0_1.index t (1 : Fin 2) * 512 + 1 * q'.val = 512 * (t.val % 16) + q'.val; rw [e1]; omega

/-- The stoichiometry block: column `q'` of the block is column `512 (t % 16) + q'` of the array. -/
theorem sblk_apply (c : Dev nD) (t : Fin cfg0.N) (q : Fin 2048) (q' : Fin 512) (hr : 512 * (t.val % 16) + q'.val < 8192) :
    sblk m c t (ix2 q q') = m ((c : Thread nD τ).loc main_arg2) (ix2 q ⟨512 * (t.val % 16) + q'.val, hr⟩) := by
  obtain ⟨-, -, -, -, e0, e1, -⟩ := idx_facts t
  refine Eq.trans ?_ (congrFun (V_main_arg2 m c) _)
  show V m c main_arg2 (((cfg0.win 2).blk t).view.emb (ix2 q q')) = V m c main_arg2 (ix2 q ⟨512 * (t.val % 16) + q'.val, hr⟩)
  refine congrArg (V m c main_arg2) (funext fun a => Fin.ext ?_)
  match a with
  | ⟨0, _⟩ => show win0_2.index t (0 : Fin 2) * 2048 + 1 * q.val = q.val; rw [e0]; omega
  | ⟨1, _⟩ => show win0_2.index t (1 : Fin 2) * 512 + 1 * q'.val = 512 * (t.val % 16) + q'.val; rw [e1]; omega

/-- The host reshapes the 8192 rate constants to one row of 8192 before the kernel runs. -/
theorem krow_eq (c : Dev nD) :
    (V m c main_v0 : S1x8192.Idx → Elt F .f32) = shapeCast S1x8192 (m ((c : Thread nD τ).loc main_arg3)) shapeCasts_S8192_S1x8192 := by
  dsimp only [V, hostOps0]
  after_results
  rfl

/-- The rate-constant block: entry `q'` of the row block is rate constant `512 (t % 16) + q'`. -/
theorem kblk_apply (c : Dev nD) (t : Fin cfg0.N) (q' : Fin 512) (hr : 512 * (t.val % 16) + q'.val < 8192) :
    kblk m c t (ix2 0 q') = m ((c : Thread nD τ).loc main_arg3) (ix1 ⟨512 * (t.val % 16) + q'.val, hr⟩) := by
  obtain ⟨-, -, -, -, -, -, e0, e1, -⟩ := idx_facts t
  have hV : kblk m c t (ix2 0 q') = V m c main_v0 (ix2 0 ⟨512 * (t.val % 16) + q'.val, hr⟩) := by
    show V m c main_v0 (((cfg0.win 3).blk t).view.emb (ix2 0 q')) = V m c main_v0 (ix2 0 ⟨512 * (t.val % 16) + q'.val, hr⟩)
    refine congrArg (V m c main_v0) (funext fun a => Fin.ext ?_)
    match a with
    | ⟨0, _⟩ => show win0_3.index t (0 : Fin 2) * 1 + 1 * 0 = 0; rw [e0]
    | ⟨1, _⟩ => show win0_3.index t (1 : Fin 2) * 512 + 1 * q'.val = 512 * (t.val % 16) + q'.val; rw [e1]; omega
  rw [hV, krow_eq]
  refine shapeCast_apply _ _ _ _ ?_
  show ((⟨1, ![8192]⟩ : Shape).rowMajor (ix1 (⟨512 * (t.val % 16) + q'.val, hr⟩ : Fin 8192))).val
    = ((⟨2, ![1, 8192]⟩ : Shape).rowMajor (ix2 (0 : Fin 1) (⟨512 * (t.val % 16) + q'.val, hr⟩ : Fin 8192))).val
  rw [Shape.rowMajor_val_one, Shape.rowMajor_val_two]
  show 512 * (t.val % 16) + q'.val = 0 * 8192 + (512 * (t.val % 16) + q'.val)
  omega

/-! ## The accumulator, point by point -/

/-- At a first reaction tile the accumulator is left at the payload over the zero block. -/
theorem acc_first (c : Dev nD) (t : Fin cfg0.N) (h0 : t.val % 16 = 0) (h1 : ¬t.val % 16 = 15) :
    (outsAt0 m c t.val t.isLt).2 = k0_pay2 (xblk m c t) (eblk m c t) (kblk m c t) (sblk m c t) (k0_pay1 (F := F)) := by
  rw [outsAt0_A m c t h0 h1]
  dsimp only
  exact Body.scratch_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At any other reaction tile it is left at the payload over what the point before left in it. -/
theorem acc_later (c : Dev nD) (t : Fin cfg0.N) (h0 : ¬t.val % 16 = 0) :
    (outsAt0 m c t.val t.isLt).2 = k0_pay2 (xblk m c t) (eblk m c t) (kblk m c t) (sblk m c t)
      (outsAt0 m c (t.val - 1) (Nat.lt_of_le_of_lt (Nat.sub_le _ _) t.isLt)).2 := by
  by_cases h1 : t.val % 16 = 15
  · rw [outsAt0_C m c t h0 h1]
    dsimp only
    exact Body.scratch_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact Body.scratch_middle (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At a last reaction tile the output block is stored with what the accumulator then holds. -/
theorem out_last (c : Dev nD) (t : Fin cfg0.N) (h0 : ¬t.val % 16 = 0) (h1 : t.val % 16 = 15) :
    (outsAt0 m c t.val t.isLt).1 = (outsAt0 m c t.val t.isLt).2 := by
  rw [outsAt0_C m c t h0 h1]
  dsimp only
  exact (Body.out_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (Body.scratch_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm

end Cert.Kinetic.Blocks

end
-- ==== Proof.Tile.lean ====
/-
  One grid point's arithmetic, read at an index.

  At a grid point the body holds a 256 × 2048 block `xb` of concentrations, the 2048 × 512 blocks `Eb`, `Sb` of the
  two integer matrices and the 1 × 512 row `kb` of rate constants, and writes `acc + tile` where, at (p, q),

      tile(p, q) = ∑_{q' < 512} ( kb(0, q') · exp ( ∑_{j < 2048} log xb(p, j) · Eb(j, q') ) ) · Sb(q, q').

  On the extended reals the narrowing to bf16 is the identity and an integer converts to the number it denotes, so
  the two matrix products are plain sums of products: the first contracts the metabolite axis of `log xb` with the
  row axis of `Eb`, the second contracts the reaction axis of the rate block with the column axis of `Sb` (the
  product with the transpose).
-/
import proofs.«144620_j31602369364718_1_alg».proof.Proof.Gen.KernelIdeal.Skeleton
import proofs.«144620_j31602369364718_1_alg».proof.Proof.Spec
import Idealize.ShloMosaic.Lib.Pipeline.Value
import Idealize.ShloMosaic.Lib.ValueIdx
import Idealize.ShloMosaic.PureOps.Ideal.Laws

noncomputable section

namespace Cert.Kinetic.Tile

open Cert.KernelIdeal Cert.KernelIdeal.Gen Idealize.ShloMosaic Idealize.ShloMosaic.ValueIdx
open scoped BigOperators

/-! ## The exponent product: [256, 2048] · [2048, 512], contracting the metabolites -/

theorem expo_lhs_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem expo_lhs_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem expo_rhs_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem expo_rhs_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

/-- Entry (p, q') of the exponent product into a zero accumulator: `∑ⱼ l(p, j) · r(j, q')`. -/
theorem expo_apply {φ₁ φ₂ : FTy} (l : FVec Ideal S256x2048 φ₁) (r : FVec Ideal S2048x512 φ₂) (p : Fin 256) (q' : Fin 512) :
    matmul dot_S256x2048_S2048x512_S256x512_1_0_0_1_n_n none l r (constant S256x512 .f32 0x00000000#32) (ix2 p q')
      = ∑ j : Fin 2048, l (ix2 p j) * r (ix2 j q') := by
  show FloatOps.matmul dot_S256x2048_S2048x512_S256x512_1_0_0_1_n_n none l r (constant S256x512 .f32 0x00000000#32) (ix2 p q') = _
  rw [Ideal.matmul_constant_zero_apply, ← Equiv.sum_comp (contrEquiv1 dot_S256x2048_S2048x512_S256x512_1_0_0_1_n_n 2048 rfl rfl).symm]
  refine Finset.sum_congr rfl fun j _ => ?_
  have hj := contrEquiv1_symm_val dot_S256x2048_S2048x512_S256x512_1_0_0_1_n_n 2048 rfl rfl j
  have el : dot_S256x2048_S2048x512_S256x512_1_0_0_1_n_n.lhsIdx (ix2 p q') ((contrEquiv1 dot_S256x2048_S2048x512_S256x512_1_0_0_1_n_n 2048 rfl rfl).symm j) = ix2 p j := funext fun a => Fin.ext (by
    match a with
    | ⟨0, _⟩ => exact expo_lhs_0 _ _
    | ⟨1, _⟩ => exact (expo_lhs_1 _ _).trans hj)
  have er : dot_S256x2048_S2048x512_S256x512_1_0_0_1_n_n.rhsIdx (ix2 p q') ((contrEquiv1 dot_S256x2048_S2048x512_S256x512_1_0_0_1_n_n 2048 rfl rfl).symm j) = ix2 j q' := funext fun a => Fin.ext (by
    match a with
    | ⟨0, _⟩ => exact (expo_rhs_0 _ _).trans hj
    | ⟨1, _⟩ => exact expo_rhs_1 _ _)
  rw [el, er]

/-! ## The stoichiometric product: [256, 512] · [2048, 512]ᵀ, contracting the tile's reactions -/

theorem stoi_lhs_0 (i : S256x2048.Idx) (q : dot_S256x512_S2048x512_S256x2048_1_1_0_0_n_n.contr.Idx) :
    (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide), dif_pos (show (0 : Fin S256x512.rank) ∈ dot_S256x512_S2048x512_S256x2048_1_1_0_0_n_n.lhsNonContracting by decide)]
  rfl
theorem stoi_lhs_1 (i : S256x2048.Idx) (q : dot_S256x512_S2048x512_S256x2048_1_1_0_0_n_n.contr.Idx) :
    (dot_S256x512_S2048x512_S256x2048_1_1_0_0_n_n.lhsIdx i q 1).val = (q ⟨0, by decide⟩).val :=
  dot_S256x512_S2048x512_S256x2048_1_1_0_0_n_n.lhsIdx_val_of_single rfl i q
theorem stoi_rhs_0 (i : S256x2048.Idx) (q : dot_S256x512_S2048x512_S256x2048_1_1_0_0_n_n.contr.Idx) :
    (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide), dif_pos (show (0 : Fin S2048x512.rank) ∈ dot_S256x512_S2048x512_S256x2048_1_1_0_0_n_n.rhsNonContracting by decide)]
  rfl
theorem stoi_rhs_1 (i : S256x2048.Idx) (q : dot_S256x512_S2048x512_S256x2048_1_1_0_0_n_n.contr.Idx) :
    (dot_S256x512_S2048x512_S256x2048_1_1_0_0_n_n.rhsIdx i q 1).val = (q ⟨0, by decide⟩).val :=
  dot_S256x512_S2048x512_S256x2048_1_1_0_0_n_n.rhsIdx_val_of_single rfl i q

/-- Entry (p, q) of the stoichiometric product into a zero accumulator: `∑_{q'} l(p, q') · r(q, q')`. -/
theorem stoi_apply {φ₁ φ₂ : FTy} (l : FVec Ideal S256x512 φ₁) (r : FVec Ideal S2048x512 φ₂) (p : Fin 256) (q : Fin 2048) :
    matmul dot_S256x512_S2048x512_S256x2048_1_1_0_0_n_n none l r (constant S256x2048 .f32 0x00000000#32) (ix2 p q)
      = ∑ q' : Fin 512, l (ix2 p q') * r (ix2 q q') := by
  show FloatOps.matmul dot_S256x512_S2048x512_S256x2048_1_1_0_0_n_n none l r (constant S256x2048 .f32 0x00000000#32) (ix2 p q) = _
  rw [Ideal.matmul_constant_zero_apply, ← Equiv.sum_comp (contrEquiv1 dot_S256x512_S2048x512_S256x2048_1_1_0_0_n_n 512 rfl rfl).symm]
  refine Finset.sum_congr rfl fun q' _ => ?_
  have hq := contrEquiv1_symm_val dot_S256x512_S2048x512_S256x2048_1_1_0_0_n_n 512 rfl rfl q'
  have el : dot_S256x512_S2048x512_S256x2048_1_1_0_0_n_n.lhsIdx (ix2 p q) ((contrEquiv1 dot_S256x512_S2048x512_S256x2048_1_1_0_0_n_n 512 rfl rfl).symm q') = ix2 p q' := funext fun a => Fin.ext (by
    match a with
    | ⟨0, _⟩ => exact stoi_lhs_0 _ _
    | ⟨1, _⟩ => exact (stoi_lhs_1 _ _).trans hq)
  have er : dot_S256x512_S2048x512_S256x2048_1_1_0_0_n_n.rhsIdx (ix2 p q) ((contrEquiv1 dot_S256x512_S2048x512_S256x2048_1_1_0_0_n_n 512 rfl rfl).symm q') = ix2 q q' := funext fun a => Fin.ext (by
    match a with
    | ⟨0, _⟩ => exact stoi_rhs_0 _ _
    | ⟨1, _⟩ => exact (stoi_rhs_1 _ _).trans hq)
  rw [el, er]

/-! ## The row of rate constants, broadcast down the 256 batch rows -/

theorem rate_row {α : Type} (kb : S1x512.Idx → α) (p : Fin 256) (q' : Fin 512) :
    broadcastTo S256x512 kb broadcasts_S1x512_S256x512 (ix2 p q') = kb (ix2 0 q') :=
  broadcastTo_apply kb broadcasts_S1x512_S256x512 (ix2 p q') (ix2 0 q') (fun a => match a with
    | ⟨0, _⟩ => by show (0 : ℕ) = if (1 : Nat) = 1 then 0 else p.val; rw [if_pos rfl]
    | ⟨1, _⟩ => by show q'.val = if (512 : Nat) = 1 then 0 else q'.val; rw [if_neg (by decide)])

/-! ## The tile, and the payload -/

/-- What one grid point adds at (p, q): its 512 reactions' shares, from the point's blocks. -/
def tileFlux (xb : Vec Ideal S256x2048 .f32) (Eb : Vec Ideal S2048x512 .i32) (kb : Vec Ideal S1x512 .f32)
    (Sb : Vec Ideal S2048x512 .i32) (p : Fin 256) (q : Fin 2048) : EReal :=
  ∑ q' : Fin 512, (kb (ix2 0 q') * Ideal.exp (∑ j : Fin 2048, Ideal.log (xb (ix2 p j)) * intVal (Eb (ix2 j q'))))
    * intVal (Sb (ix2 q q'))

/-- THE PAYLOAD AT AN INDEX: the accumulator's new entry is its old entry plus the tile's. -/
theorem pay_apply (xb : Vec Ideal S256x2048 .f32) (Eb : Vec Ideal S2048x512 .i32) (kb : Vec Ideal S1x512 .f32)
    (Sb : Vec Ideal S2048x512 .i32) (acc : Vec Ideal S256x2048 .f32) (p : Fin 256) (q : Fin 2048) :
    k0_pay2 (F := Ideal) xb Eb kb Sb acc (ix2 p q) = acc (ix2 p q) + tileFlux xb Eb kb Sb p q := by
  unfold k0_pay2
  simp only [shapeCast_self]
  rw [addf_apply, stoi_apply]
  unfold tileFlux
  refine congrArg (acc (ix2 p q) + ·) (Finset.sum_congr rfl fun q' _ => ?_)
  show (broadcastTo S256x512 kb broadcasts_S1x512_S256x512 (ix2 p q')
      * Ideal.exp (matmul (F := Ideal) dot_S256x2048_S2048x512_S256x512_1_0_0_1_n_n none (truncf (F := Ideal) .bf16 (log (F := Ideal) xb) bitsLt_bf16_f32)
          (sitofp (F := Ideal) .bf16 Eb) (constant (F := Ideal) S256x512 .f32 0x00000000#32) (ix2 p q')))
      * intVal (Sb (ix2 q q')) = _
  rw [expo_apply, rate_row]
  rfl

/-- The zero block the first reaction tile starts from. -/
theorem zero_apply (i : S256x2048.Idx) : k0_pay1 (F := Ideal) i = 0 := by
  unfold k0_pay1
  simp only [shapeCast_self]
  show Ideal.ofBits .f32 0x00000000#32 = 0
  exact Ideal.ofBits_zero_f32

end Cert.Kinetic.Tile

end
-- ==== Proof.Accumulate.lean ====
/-
  The accumulator after each grid point, on the extended reals.

  After point `n` (batch tile `n / 16`, reaction tile `n % 16`) the accumulator's entry (p, q) is the sum of the
  shares of reaction tiles `0 … n % 16` for batch row `256 (n / 16) + p` and metabolite `q`: it is reset at the
  first reaction tile (`0 + tile`), and every later point adds its own tile to what the point before left — the
  point before is in the same batch tile, one reaction tile earlier. By induction on the point.
-/
import proofs.«144620_j31602369364718_1_alg».proof.Proof.Blocks
import proofs.«144620_j31602369364718_1_alg».proof.Proof.Tile
import proofs.«144620_j31602369364718_1_alg».proof.Proof.Spec

noncomputable section

namespace Cert.Kinetic.Accumulate

open Cert.KernelIdeal Cert.KernelIdeal.Gen Idealize.ShloMosaic Idealize.ShloMosaic.TcCoe Idealize.ShloMosaic.ValueIdx
open Idealize.SL.Sem Cert.Kinetic Cert.Kinetic.Blocks Cert.Kinetic.Tile
open scoped BigOperators

variable (m : (ℓ : Loc nD τ sig) → Buf (Elt Ideal) ℓ)

/-- The four argument arrays on core `c`, as the specification takes them. -/
abbrev X (c : Dev nD) : ConcArr := m ((c : Thread nD τ).loc main_arg0)
abbrev E (c : Dev nD) : IntArr := m ((c : Thread nD τ).loc main_arg1)
abbrev S (c : Dev nD) : IntArr := m ((c : Thread nD τ).loc main_arg2)
abbrev K (c : Dev nD) : RateArr := m ((c : Thread nD τ).loc main_arg3)

/-- Row `p` of the batch tile of point `n`. -/
def batchRow (n : ℕ) (h : n < cfg0.N) (p : Fin 256) : Fin 1024 :=
  ⟨256 * (n / 16) + p.val, by have := lt_of_lt_of_eq h (show cfg0.N = 64 from N_0); have := p.isLt; omega⟩

/-- What point `t` adds at (p, q) is the specification's sum over reaction tile `t % 16`. -/
theorem tile_eq (c : Dev nD) (t : Fin cfg0.N) (p : Fin 256) (q : Fin 2048) :
    tileFlux (xblk m c t) (eblk m c t) (kblk m c t) (sblk m c t) p q
      = tileSum (X m c) (E m c) (S m c) (K m c) (batchRow t.val t.isLt p) q (t.val % 16) := by
  have hN := lt64 t
  have hb : 256 * (t.val / 16) + p.val < 1024 := by have := p.isLt; omega
  unfold tileFlux tileSum
  refine Finset.sum_congr rfl fun q' _ => ?_
  have hr : 512 * (t.val % 16) + q'.val < 8192 := by have := q'.isLt; omega
  rw [shareN_of_lt _ _ _ _ _ _ _ hr]
  unfold share rate logRate
  rw [kblk_apply m c t q' hr, sblk_apply m c t q q' hr]
  simp only [xblk_apply m c t p hb, eblk_apply m c t q' hr]
  rfl

/-- THE INVARIANT: the accumulator after point `n` holds the running sum up to reaction tile `n % 16`. -/
theorem acc_eq (c : Dev nD) : ∀ (n : ℕ) (h : n < cfg0.N) (p : Fin 256) (q : Fin 2048),
    (outsAt0 m c n h).2 (ix2 p q) = runSum (X m c) (E m c) (S m c) (K m c) (batchRow n h p) q (n % 16)
  | 0, h, p, q => by
    have e := acc_first m c ⟨0, h⟩ rfl (by show ¬(0 : ℕ) % 16 = 15; omega)
    rw [show (outsAt0 m c 0 h).2 = _ from e, pay_apply, Tile.zero_apply, tile_eq]
    exact (runSum_zero _ _ _ _ _ _).symm
  | n + 1, h, p, q => by
    have hN : n + 1 < 64 := lt_of_lt_of_eq h (show cfg0.N = 64 from N_0)
    by_cases h0 : (n + 1) % 16 = 0
    · have e := acc_first m c ⟨n + 1, h⟩ h0 (by show ¬(n + 1) % 16 = 15; omega)
      rw [show (outsAt0 m c (n + 1) h).2 = _ from e, pay_apply, Tile.zero_apply, tile_eq]
      show _ = runSum _ _ _ _ _ _ ((n + 1) % 16)
      rw [h0]
      exact (runSum_zero _ _ _ _ _ _).symm
    · have e := acc_later m c ⟨n + 1, h⟩ h0
      rw [show (outsAt0 m c (n + 1) h).2 = _ from e, pay_apply, tile_eq]
      show (outsAt0 m c n _).2 (ix2 p q) + _ = runSum _ _ _ _ _ _ ((n + 1) % 16)
      rw [acc_eq c n (Nat.lt_of_succ_lt h) p q]
      have hrow : batchRow n (Nat.lt_of_succ_lt h) p = batchRow (n + 1) h p :=
        Fin.ext (by show 256 * (n / 16) + p.val = 256 * ((n + 1) / 16) + p.val; omega)
      have hmod : (n + 1) % 16 = n % 16 + 1 := by omega
      rw [hrow, hmod]
      exact (runSum_succ _ _ _ _ _ _ _).symm

end Cert.Kinetic.Accumulate

end
-- ==== Proof.Result.lean ====
/-
  The output array after the run.

  The output block is written back only at a last reaction tile, `t % 16 = 15`; there the body has just stored the
  accumulator into it, and the accumulator holds tiles `0 … 15`, that is the whole sum over the 8192 reactions, for
  the rows of batch tile `t / 16`. So what is written back is that batch tile's 256 rows of `flux`, and the four
  written blocks (points 15, 31, 47, 63) cover the 1024 rows: the array ends holding `flux` of the arguments.
-/
import proofs.«144620_j31602369364718_1_alg».proof.Proof.Accumulate
import proofs.«144620_j31602369364718_1_alg».proof.Proof.Gen.KernelIdeal.Value

noncomputable section

namespace Cert.Kinetic.Result

open Cert.KernelIdeal Cert.KernelIdeal.Gen Idealize.ShloMosaic Idealize.ShloMosaic.TcCoe Idealize.ShloMosaic.ValueIdx
open Idealize.SL.Sem Cert.Kinetic Cert.Kinetic.Blocks Cert.Kinetic.Accumulate
open Idealize.ShloMosaic.Pipeline (Dat)

variable (m : (ℓ : Loc nD τ sig) → Buf (Elt Ideal) ℓ) (ρ : Dev nD → PrngReg)

/-- The result as contents of the output array on core `c`. -/
abbrev out (c : Dev nD) : Buf (Elt Ideal) ((c : Thread nD τ).loc main_v1) :=
  flux (X m c) (E m c) (S m c) (K m c)

/-- WHAT A LAST REACTION TILE WRITES BACK: its batch tile's rows of the result. -/
theorem flushed_eq (c : Dev nD) (t : Fin cfg0.N) (hf : (cfg0.win 4).flush t = true) :
    (dats m 0 c).flushed 4 t = ((cfg0.win 4).blk t).view.read (Elt Ideal) (out m c) := by
  have h1 : t.val % 16 = 15 := (flush0_4 t).mp hf
  have h0 : ¬t.val % 16 = 0 := by omega
  obtain ⟨-, -, -, -, -, -, -, -, e0, e1⟩ := idx_facts t
  rw [Cert.KernelIdeal.Value.flushed4]
  funext y
  obtain ⟨p, q, rfl⟩ : ∃ (p : Fin 256) (q : Fin 2048), y = ix2 p q := ⟨y 0, y 1, eq_ix2 y⟩
  show (outsAt0 m c t.val t.isLt).1 (ix2 p q) = flux (X m c) (E m c) (S m c) (K m c) (((cfg0.win 4).blk t).view.emb (ix2 p q))
  rw [out_last m c t h0 h1, acc_eq m c t.val t.isLt p q, h1, runSum_last]
  refine congrArg (flux (X m c) (E m c) (S m c) (K m c)) (funext fun a => Fin.ext ?_)
  match a with
  | ⟨0, _⟩ => show 256 * (t.val / 16) + p.val = win0_4.index t (0 : Fin 2) * 256 + 1 * p.val; rw [e0]; omega
  | ⟨1, _⟩ => show q.val = win0_4.index t (1 : Fin 2) * 2048 + 1 * q.val; rw [e1]; omega

/-- An index is in point `t`'s output block iff each coordinate is in the block's range on its axis. -/
theorem mem_blk (t : Fin cfg0.N) (i : S1024x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v1).slice (win0_4.rect t)).set ↔ _
  rw [View.set_slice_whole, Rect.mem_set_unit]
  exact Iff.rfl

/-- Every index of the output array is in the block written back at the last reaction tile of its batch tile. -/
theorem cover (i : S1024x2048.Idx) :
    ∃ t : Fin cfg0.N, (cfg0.win 4).flush t = true ∧ i ∈ ((cfg0.win 4).blk t).view.set := by
  have hi0 : (i 0).val < 1024 := (i 0).isLt
  have hi1 : (i 1).val < 2048 := (i 1).isLt
  have hN : cfg0.N = 64 := N_0
  obtain ⟨t, ht⟩ : ∃ t : Fin cfg0.N, t.val = 16 * ((i 0).val / 256) + 15 := ⟨⟨16 * ((i 0).val / 256) + 15, by rw [hN]; omega⟩, rfl⟩
  obtain ⟨-, -, -, -, -, -, -, -, e0, e1⟩ := idx_facts t
  refine ⟨t, (flush0_4 t).mpr (by rw [ht]; omega), ?_⟩
  rw [mem_blk]
  intro a
  match a with
  | ⟨0, _⟩ => show win0_4.index t (0 : Fin 2) * 256 ≤ (i 0).val ∧ (i 0).val < win0_4.index t (0 : Fin 2) * 256 + 256; rw [e0, ht]; omega
  | ⟨1, _⟩ => show win0_4.index t (1 : Fin 2) * 2048 ≤ (i 1).val ∧ (i 1).val < win0_4.index t (1 : Fin 2) * 2048 + 2048; rw [e1]; omega

/-- THE OUTPUT ARRAY after the run is the result. -/
theorem final (c : Dev nD) : (dats m 0 c).arrAt 4 cfg0.N = out m c :=
  (dats m 0 c).arrAt_eq_of_cover 4 (out m c) (flushed_eq m c) cover

/-- THE KERNEL'S RUN, READ: the output array at `flux` of the argument arrays, the arguments unchanged. -/
theorem run : θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Kinetic.Result

end
-- ==== Proof.lean ====
/-
  A fused mass-action kinetics kernel against its jnp reference, over the extended reals.

  Both programs take concentrations x[1024, 2048], integer kinetic orders E[2048, 8192], integer stoichiometry
  S[2048, 8192] and rate constants k[8192], and return, at batch row b and metabolite q,

      out(b, q) = ∑ᵣ ( k(r) · exp ( ∑ⱼ log x(b, j) · E(j, r) ) ) · S(q, r).

  The reference forms the two contractions whole. The kernel walks a 4 × 16 grid (batch tiles of 256 rows, reaction
  tiles of 512 columns): at each point it forms the 256 × 512 block of rates and multiplies it with the transposed
  512-column block of S, adding the 256 × 2048 product into an accumulator that it resets at the first reaction tile
  and copies to the output block at the last. With floats read as extended reals the narrowing to bf16 is the
  identity and an integer converts to the number it denotes, so the kernel's result is the same sum cut into 16
  consecutive pieces and added in order; addition of extended reals is commutative and associative, so the pieces
  add up to the whole whatever the summands are (no finiteness is used).

  Modules: Spec (the function and the tiling law), RefIsFlux (the reference computes it), Pieces and Tile (what one
  run of the body stores, and that value at an index), Blocks (which entries of the arguments a point sees),
  Accumulate (the accumulator after each point, by induction), Result (the output array after the run).
-/
import proofs.«144620_j31602369364718_1_alg».proof.Defs
import proofs.«144620_j31602369364718_1_alg».proof.Proof.Gen.Kernel
import proofs.«144620_j31602369364718_1_alg».proof.Proof.Gen.Kernel.Skeleton
import proofs.«144620_j31602369364718_1_alg».proof.Proof.Gen.Kernel.Launch
import proofs.«144620_j31602369364718_1_alg».proof.Proof.Gen.Kernel.Points
import proofs.«144620_j31602369364718_1_alg».proof.Proof.Gen.Kernel.Frame
import proofs.«144620_j31602369364718_1_alg».proof.Proof.Gen.KernelIdeal
import proofs.«144620_j31602369364718_1_alg».proof.Proof.Gen.KernelIdeal.Skeleton
import proofs.«144620_j31602369364718_1_alg».proof.Proof.Gen.KernelIdeal.Launch
import proofs.«144620_j31602369364718_1_alg».proof.Proof.Gen.KernelIdeal.Points
import proofs.«144620_j31602369364718_1_alg».proof.Proof.Gen.KernelIdeal.Frame
import proofs.«144620_j31602369364718_1_alg».proof.Proof.Gen.ReferenceIdeal
import proofs.«144620_j31602369364718_1_alg».proof.Proof.Gen.Pre_finite_inputs
import proofs.«144620_j31602369364718_1_alg».proof.Proof.Gen.KernelIdeal.Value
import proofs.«144620_j31602369364718_1_alg».proof.Proof.Gen.ReferenceIdeal.Run
import proofs.«144620_j31602369364718_1_alg».proof.Proof.Gen.ReferenceIdeal.Read
import proofs.«144620_j31602369364718_1_alg».proof.Proof.RefIsFlux
import proofs.«144620_j31602369364718_1_alg».proof.Proof.Result
import Idealize.ShloMosaic.Adequacy
import Idealize.ShloMosaic.Init

noncomputable section

namespace Cert.Proof

open Idealize.ShloMosaic Idealize.ShloMosaic.TcCoe Idealize.SL.Sem

/-- The word-level kernel runs to the end and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is nine host operations in a row: it runs to the end, and none of them writes an argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- From arguments that agree, the kernel's output array and the reference's result both end at `flux` of the
    arguments: the kernel's by the accumulation over the grid, the reference's stage by stage. -/
theorem algebraic : Cert.algebraic_KernelIdeal_ReferenceIdeal := by
  intro m ρ m' ρ' _ hagree
  refine ⟨fun c => Cert.Kinetic.Result.out m c, Cert.Kinetic.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Kinetic.Reference.result_eq_flux,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
